-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 91
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S50000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000x1, .f32⟩
  | .hbm, ⟨50, _⟩ => ⟨S50000x64, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x64, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.Region0.lean ====
/-
  The first projection, read as a value over the extended reals.

  The row-tiled kernel computes the product in five row blocks: grid point t loads rows
  [10000 t, 10000 t + 10000) of the left operand and the whole right operand, rounds both to bf16 (the identity over
  the extended reals), multiplies them into a zero accumulator and stores the block; the block is written back to rows
  [10000 t, 10000 t + 10000) of the result.  Entry (p, q) of that block is Σₖ x(10000 t + p, k) · w(k, q), which is
  entry (10000 t + p, q) of the plain product of the whole operands.  The five blocks tile the 50000 rows, so the
  result array ends holding the plain product of the two operand arrays as the region finds them.
-/
import proofs.«165817_j14345190768997_1_alg».proof.Proof.Gen.KernelIdeal.Frame
import proofs.«165817_j14345190768997_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The printed dimension numbers are those of a plain product: contract the left operand's columns with the right
    operand's rows, no batch axis. -/
theorem dot_eq : dot_S10000x128_S128x64_S10000x64_1_0_0_1_n_n = DotDims.plain 10000 128 64 := rfl

theorem zero_off : (![0, 0] : Fin 2 → Nat) = fun _ => 0 := funext fun a => by fin_cases a <;> rfl

/-- Entry (p, q) of what one grid point stores: the sum over k of the loaded row block at (p, k) times the loaded
    right operand at (k, q). -/
theorem pay_apply (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  rw [dot_eq]
  exact LibMatmul.matmul_zero_plain_apply none _ _ p q

/-! ## The region, at whatever contents it is entered from -/

section
variable (V : (c : Dev nD) → (b : Ref sig .tc) → Buf (Elt Ideal) ((c : Thread nD τ).loc b))

/-- The two operand arrays as the region finds them. -/
abbrev lhsArr (c : Dev nD) : FVec Ideal S50000x128 .f32 := V c main_arg0
abbrev rhsArr (c : Dev nD) : FVec Ideal S128x64 .f32 := V c main_arg2

/-- Their plain product. -/
def prod (c : Dev nD) : FVec Ideal S50000x64 .f32 :=
  Host.dotGeneral (F := Ideal) (DotDims.plain 50000 128 64) none (lhsArr V c) (rhsArr V c)

/-- Its entry (r, q): the sum over k of the left array at (r, k) times the right array at (k, q). -/
theorem prod_apply (c : Dev nD) (r : Fin 50000) (q : Fin 64) :
    prod V c (ix2 r q) = ∑ k : Fin 128, lhsArr V c (ix2 r k) * rhsArr V c (ix2 k q) :=
  LibMatmul.dotGeneral_plain_apply none .single (lhsArr V c) (rhsArr V c) r q

/-- The block indices over the grid: the left operand's and the result's row block is the point, every column block
    is the only one, and the right operand's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 10000 t … of the array. -/
theorem xblk_apply (c : Dev nD) (t : Fin cfg0.N) (p : Fin 10000) (k : Fin 128) (h : t.val * 10000 + p.val < 50000) :
    (iblk0 V c 0 t : Vec Ideal S10000x128 .f32) (ix2 p k)
      = lhsArr V c (ix2 ⟨t.val * 10000 + p.val, h⟩ k) := by
  obtain ⟨e0, e1, -⟩ := idx_facts t
  show V c main_arg0 (((cfg0.win 0).blk t).view.emb (ix2 p k)) = V c main_arg0 (ix2 ⟨t.val * 10000 + p.val, h⟩ k)
  refine congrArg (V c main_arg0) ?_
  funext a; apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The right operand's block at every point is the whole array. -/
theorem wblk_apply (c : Dev nD) (t : Fin cfg0.N) (k : Fin 128) (q : Fin 64) :
    (iblk0 V c 1 t : Vec Ideal S128x64 .f32) (ix2 k q) = rhsArr V c (ix2 k q) := by
  obtain ⟨-, -, e2, e3, -⟩ := idx_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t writes back is rows 10000 t … of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  funext j
  obtain ⟨p, q, rfl⟩ : ∃ (p : Fin 10000) (q : Fin 64), j = ix2 p q := ⟨j 0, j 1, eq_ix2 j⟩
  have ht : t.val < 5 := Nat.lt_of_lt_of_eq t.isLt N_0
  have hp : p.val < 10000 := p.isLt
  have hr : t.val * 10000 + p.val < 50000 := by omega
  obtain ⟨-, -, -, -, e4, e5⟩ := idx_facts t
  have hemb : ((cfg0.win 2).blk t).view.emb (ix2 p q) = (ix2 ⟨t.val * 10000 + p.val, hr⟩ q : S50000x64.Idx) := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  show k0_pay1 (F := Ideal) (iblk0 V c 0 t) (iblk0 V c 1 t) (ix2 p q) = prod V c (((cfg0.win 2).blk t).view.emb (ix2 p q))
  refine (pay_apply (iblk0 V c 0 t) (iblk0 V c 1 t) p q).trans ?_
  rw [hemb, prod_apply]
  refine Finset.sum_congr rfl fun k _ => ?_
  rw [xblk_apply V c t p k hr, wblk_apply V c t k q]

/-- An index of the result is in point t's block iff its row is among the block's rows (and its column among the
    64 columns). -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row r is in the block of point r / 10000: the five blocks tile the array. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  have ht : (i 0).val / 10000 < cfg0.N := by rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The result array after the region: the plain product of the operand arrays as the region found them. -/
theorem final (c : Dev nD) : (dat0 V c).arrAt 2 cfg0.N = prod V c :=
  (dat0 V c).arrAt_eq_of_cover 2 (prod V c) (fun t _ => flushed_eq V c t) cover

end

end Cert.KernelIdeal.Region0

end
-- ==== Proof.Region1.lean ====
/-
  The second projection, read as a value over the extended reals.

  The same row-tiled kernel applied to the hidden layer: grid point t loads rows [10000 t, 10000 t + 10000) of the
  hidden layer (a 50000 × 64 array) and the whole 64 × 64 weight, rounds both to bf16 (the identity over the extended
  reals; the load's reshape is to the block's own shape), multiplies them into a zero accumulator and stores the
  block, which is written back to the same rows of the result.  Entry (p, q) of the block is
  Σₖ h(10000 t + p, k) · w(k, q): entry (10000 t + p, q) of the plain product of the whole operands.  The five blocks
  tile the 50000 rows, so the result array ends holding the plain product of the two operand arrays as the region
  finds them.
-/
import proofs.«165817_j14345190768997_1_alg».proof.Proof.Gen.KernelIdeal.Frame
import proofs.«165817_j14345190768997_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The printed dimension numbers are those of a plain product: contract the left operand's columns with the right
    operand's rows, no batch axis. -/
theorem dot_eq : dot_S10000x64_S64x64_S10000x64_1_0_0_1_n_n = DotDims.plain 10000 64 64 := rfl

theorem zero_off : (![0, 0] : Fin 2 → Nat) = fun _ => 0 := funext fun a => by fin_cases a <;> rfl

/-- Entry (p, q) of what one grid point stores: the sum over k of the loaded row block at (p, k) times the loaded
    weight at (k, q). -/
theorem pay_apply (x : Vec Ideal S10000x64 .f32) (w : Vec Ideal S64x64 .f32) (p : Fin 10000) (q : Fin 64) :
    k1_pay1 (F := Ideal) x w (ix2 p q) = ∑ k : Fin 64, x (ix2 p k) * w (ix2 k q) := by
  unfold k1_pay1
  rw [dot_eq, shapeCast_self]
  exact LibMatmul.matmul_zero_plain_apply none _ _ p q

/-! ## The region, at whatever contents it is entered from -/

section
variable (V : (c : Dev nD) → (b : Ref sig .tc) → Buf (Elt Ideal) ((c : Thread nD τ).loc b))

/-- The two operand arrays as the region finds them: the hidden layer and the second weight. -/
abbrev lhsArr (c : Dev nD) : FVec Ideal S50000x64 .f32 := V c main_v49
abbrev rhsArr (c : Dev nD) : FVec Ideal S64x64 .f32 := V c main_arg4

/-- Their plain product. -/
def prod (c : Dev nD) : FVec Ideal S50000x64 .f32 :=
  Host.dotGeneral (F := Ideal) (DotDims.plain 50000 64 64) none (lhsArr V c) (rhsArr V c)

/-- Its entry (r, q): the sum over k of the left array at (r, k) times the right array at (k, q). -/
theorem prod_apply (c : Dev nD) (r : Fin 50000) (q : Fin 64) :
    prod V c (ix2 r q) = ∑ k : Fin 64, lhsArr V c (ix2 r k) * rhsArr V c (ix2 k q) :=
  LibMatmul.dotGeneral_plain_apply none .single (lhsArr V c) (rhsArr V c) r q

/-- The block indices over the grid: the left operand's and the result's row block is the point, every column block
    is the only one, and the weight's block never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 10000 t … of the hidden layer. -/
theorem xblk_apply (c : Dev nD) (t : Fin cfg1.N) (p : Fin 10000) (k : Fin 64) (h : t.val * 10000 + p.val < 50000) :
    (iblk1 V c 0 t : Vec Ideal S10000x64 .f32) (ix2 p k)
      = lhsArr V c (ix2 ⟨t.val * 10000 + p.val, h⟩ k) := by
  obtain ⟨e0, e1, -⟩ := idx_facts t
  show V c main_v49 (((cfg1.win 0).blk t).view.emb (ix2 p k)) = V c main_v49 (ix2 ⟨t.val * 10000 + p.val, h⟩ k)
  refine congrArg (V c main_v49) ?_
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- The weight's block at every point is the whole array. -/
theorem wblk_apply (c : Dev nD) (t : Fin cfg1.N) (k : Fin 64) (q : Fin 64) :
    (iblk1 V c 1 t : Vec Ideal S64x64 .f32) (ix2 k q) = rhsArr V c (ix2 k q) := by
  obtain ⟨-, -, e2, e3, -⟩ := idx_facts t
  show V c main_arg4 (((cfg1.win 1).blk t).view.emb (ix2 k q)) = V c main_arg4 (ix2 k q)
  refine congrArg (V c main_arg4) ?_
  funext a; apply Fin.ext
  match a with
  | ⟨0, _⟩ => show win1_1.index t (0 : Fin 2) * 64 + 1 * k.val = k.val; rw [e2]; omega
  | ⟨1, _⟩ => show win1_1.index t (1 : Fin 2) * 64 + 1 * q.val = q.val; rw [e3]; omega

/-- What point t writes back is rows 10000 t … of the product. -/
theorem flushed_eq (c : Dev nD) (t : Fin cfg1.N) :
    (dat1 V c).flushed 2 t = ((cfg1.win 2).blk t).view.read (Elt Ideal) (prod V c) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S64x64) zero_off]
  funext j
  obtain ⟨p, q, rfl⟩ : ∃ (p : Fin 10000) (q : Fin 64), j = ix2 p q := ⟨j 0, j 1, eq_ix2 j⟩
  have ht : t.val < 5 := Nat.lt_of_lt_of_eq t.isLt N_1
  have hp : p.val < 10000 := p.isLt
  have hr : t.val * 10000 + p.val < 50000 := by omega
  obtain ⟨-, -, -, -, e4, e5⟩ := idx_facts t
  have hemb : ((cfg1.win 2).blk t).view.emb (ix2 p q) = (ix2 ⟨t.val * 10000 + p.val, hr⟩ q : S50000x64.Idx) := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 64 + 1 * q.val = q.val; rw [e5]; omega
  show k1_pay1 (F := Ideal) (iblk1 V c 0 t) (iblk1 V c 1 t) (ix2 p q) = prod V c (((cfg1.win 2).blk t).view.emb (ix2 p q))
  refine (pay_apply (iblk1 V c 0 t) (iblk1 V c 1 t) p q).trans ?_
  rw [hemb, prod_apply]
  refine Finset.sum_congr rfl fun k _ => ?_
  rw [xblk_apply V c t p k hr, wblk_apply V c t k q]

/-- An index of the result is in point t's block iff its row is among the block's rows (and its column among the
    64 columns). -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v50).slice (win1_2.rect t)).set ↔ _
  rw [View.set_slice_whole, Rect.mem_set_unit]
  exact Iff.rfl

/-- Row r is in the block of point r / 10000: the five blocks tile the array. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 5 := N_1
  have ht : (i 0).val / 10000 < cfg1.N := by rw [hN]; omega
  refine ⟨⟨(i 0).val / 10000, ht⟩, flush1_2 _, ?_⟩
  rw [mem_blk]
  obtain ⟨-, -, -, -, e4, e5⟩ := idx_facts ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The result array after the region: the plain product of the operand arrays as the region found them. -/
theorem final (c : Dev nD) : (dat1 V c).arrAt 2 cfg1.N = prod V c :=
  (dat1 V c).arrAt_eq_of_cover 2 (prod V c) (fun t _ => flushed_eq V c t) cover

end

end Cert.KernelIdeal.Region1

end
-- ==== Proof.HostSim.lean ====
/-
  The host operations of the kernel's program, stretch by stretch, against the reference's stages.

  Both programs apply the same host operations around the two projections: from the edge list they build the source
  and destination index vectors (each edge row followed by the self loops 0 … 49999), the in-degree by a scatter-add of
  ones, its inverse square root where it is positive, the per-edge factor (the product of the two gathered inverse
  roots); after a projection they gather its rows at the sources, scale them by the per-edge factor, scatter-add them at
  the destinations and add the bias; between the two layers they clamp below at zero.  Each lemma below says: if the
  buffers a stretch reads hold the reference's stages of the arguments, then the buffers it writes hold the
  reference's next stages of the same arguments; and a stretch leaves every buffer it does not write as it found it.
  No operation is opened: the two sides are the same operations applied to the same operands.
-/
import proofs.«165817_j14345190768997_1_alg».proof.Proof.Gen.KernelIdeal.Launch
import proofs.«165817_j14345190768997_1_alg».proof.Proof.RefRead
import Idealize.ShloMosaic.Lib.StableHlo.Run

set_option maxRecDepth 16384

noncomputable section

namespace Cert.KernelIdeal.HostSim

open Cert.KernelIdeal Cert.KernelIdeal.Gen
open Idealize.ShloMosaic Idealize.ShloMosaic.TcCoe Idealize.SL.Sem Idealize.ShloMosaic.StableHlo

variable {F : FTy → Type} [FloatOps F]

/-- A stretch leaves a buffer none of its operations writes as it found it. -/
macro "stretch_keeps" : tactic => `(tactic| (
  refine StableHlo.after_of_forall_not_mem _ _ (List.forall_iff_forall_mem.mp ?_)
  simp only [List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section
variable (V : Valuation τ sig (Elt F))
variable (x0 : (⟨S50000x128, .f32⟩ : BufTy).Contents (Elt F)) (x1 : (⟨S2x800000, .i32⟩ : BufTy).Contents (Elt F))
  (x2 : (⟨S128x64, .f32⟩ : BufTy).Contents (Elt F)) (x3 : (⟨S64, .f32⟩ : BufTy).Contents (Elt F))
  (x4 : (⟨S64x64, .f32⟩ : BufTy).Contents (Elt F)) (x5 : (⟨S64, .f32⟩ : BufTy).Contents (Elt F))

/-! ## The first stretch: index vectors, degrees, inverse roots -/

/-- The source vector: the edge list's first row, then the self loops. -/
theorem first_v3 : after hostOps0 V (Proc.devRef .tc main_v3)
    = Cert.ReferenceIdeal.ReadP.val_main_v3 (F := F) (V (Proc.devRef .tc main_arg1)) := by
  after_results
  rfl

/-- The destination vector: the edge list's second row, then the self loops. -/
theorem first_v6 : after hostOps0 V (Proc.devRef .tc main_v6)
    = Cert.ReferenceIdeal.ReadP.val_main_v6 (F := F) (V (Proc.devRef .tc main_arg1)) := by
  after_results
  rfl

/-- Where the in-degree is positive. -/
theorem first_v12 : after hostOps0 V (Proc.devRef .tc main_v12)
    = Cert.ReferenceIdeal.ReadP.val_main_v12 (F := F) (V (Proc.devRef .tc main_arg1)) := by
  after_results
  rfl

/-- The inverse square root of the in-degree clamped below at one. -/
theorem first_v15 : after hostOps0 V (Proc.devRef .tc main_v15)
    = Cert.ReferenceIdeal.ReadP.val_main_v15 (F := F) (V (Proc.devRef .tc main_arg1)) := by
  after_results
  rfl

/-- The zero the selection falls back to. -/
theorem first_cst3 : after hostOps0 V (Proc.devRef .tc main_cst_3)
    = Cert.ReferenceIdeal.ReadP.val_main_cst_3 (F := F) := by
  after_results
  rfl

/-! ## The call that selects the inverse root where the degree is positive -/

/-- The inverse square root of the in-degree where it is positive, zero elsewhere. -/
theorem where_v16 (h12 : V (Proc.devRef .tc main_v12) = Cert.ReferenceIdeal.ReadP.val_main_v12 (F := F) x1)
    (h15 : V (Proc.devRef .tc main_v15) = Cert.ReferenceIdeal.ReadP.val_main_v15 (F := F) x1)
    (hc : V (Proc.devRef .tc main_cst_3) = Cert.ReferenceIdeal.ReadP.val_main_cst_3 (F := F)) :
    after hostOps0_1 V (Proc.devRef .tc main_v16) = Cert.ReferenceIdeal.ReadP.val_main_v16 (F := F) x1 := by
  after_results
  rw [h12, h15, hc]
  rfl

theorem where_keeps_v3 : after hostOps0_1 V (Proc.devRef .tc main_v3) = V (Proc.devRef .tc main_v3) := by stretch_keeps
theorem where_keeps_v6 : after hostOps0_1 V (Proc.devRef .tc main_v6) = V (Proc.devRef .tc main_v6) := by stretch_keeps

/-! ## The per-edge factor -/

set_option maxHeartbeats 1000000 in
/-- The product of the inverse roots gathered at an edge's source and destination, as a column. -/
theorem norm_v32 (h16 : V (Proc.devRef .tc main_v16) = Cert.ReferenceIdeal.ReadP.val_main_v16 (F := F) x1)
    (h3 : V (Proc.devRef .tc main_v3) = Cert.ReferenceIdeal.ReadP.val_main_v3 (F := F) x1)
    (h6 : V (Proc.devRef .tc main_v6) = Cert.ReferenceIdeal.ReadP.val_main_v6 (F := F) x1) :
    after hostOps0_2 V (Proc.devRef .tc main_v32) = Cert.ReferenceIdeal.ReadP.val_main_v32 (F := F) x1 := by
  after_results_simp
  rw [h16, h3, h6]
  rfl

theorem norm_keeps_v3 : after hostOps0_2 V (Proc.devRef .tc main_v3) = V (Proc.devRef .tc main_v3) := by stretch_keeps
theorem norm_keeps_v6 : after hostOps0_2 V (Proc.devRef .tc main_v6) = V (Proc.devRef .tc main_v6) := by stretch_keeps

/-- The three stretches before the first projection write no argument array. -/
theorem head_keeps_arg0 : after hostOps0_2 (after hostOps0_1 (after hostOps0 V)) (Proc.devRef .tc main_arg0) = V (Proc.devRef .tc main_arg0) := by
  refine Eq.trans (b := after hostOps0_1 (after hostOps0 V) (Proc.devRef .tc main_arg0)) ?_
    (Eq.trans (b := after hostOps0 V (Proc.devRef .tc main_arg0)) ?_ ?_) <;> stretch_keeps
theorem head_keeps_arg2 : after hostOps0_2 (after hostOps0_1 (after hostOps0 V)) (Proc.devRef .tc main_arg2) = V (Proc.devRef .tc main_arg2) := by
  refine Eq.trans (b := after hostOps0_1 (after hostOps0 V) (Proc.devRef .tc main_arg2)) ?_
    (Eq.trans (b := after hostOps0 V (Proc.devRef .tc main_arg2)) ?_ ?_) <;> stretch_keeps
theorem head_keeps_arg3 : after hostOps0_2 (after hostOps0_1 (after hostOps0 V)) (Proc.devRef .tc main_arg3) = V (Proc.devRef .tc main_arg3) := by
  refine Eq.trans (b := after hostOps0_1 (after hostOps0 V) (Proc.devRef .tc main_arg3)) ?_
    (Eq.trans (b := after hostOps0 V (Proc.devRef .tc main_arg3)) ?_ ?_) <;> stretch_keeps
theorem head_keeps_arg4 : after hostOps0_2 (after hostOps0_1 (after hostOps0 V)) (Proc.devRef .tc main_arg4) = V (Proc.devRef .tc main_arg4) := by
  refine Eq.trans (b := after hostOps0_1 (after hostOps0 V) (Proc.devRef .tc main_arg4)) ?_
    (Eq.trans (b := after hostOps0 V (Proc.devRef .tc main_arg4)) ?_ ?_) <;> stretch_keeps
theorem head_keeps_arg5 : after hostOps0_2 (after hostOps0_1 (after hostOps0 V)) (Proc.devRef .tc main_arg5) = V (Proc.devRef .tc main_arg5) := by
  refine Eq.trans (b := after hostOps0_1 (after hostOps0 V) (Proc.devRef .tc main_arg5)) ?_
    (Eq.trans (b := after hostOps0 V (Proc.devRef .tc main_arg5)) ?_ ?_) <;> stretch_keeps

/-! ## Aggregation after the first projection, and the clamp at zero -/

set_option maxHeartbeats 1000000 in
/-- Gather the projected rows at the sources, scale by the per-edge factor, scatter-add at the destinations, add the
    first bias. -/
theorem agg_v48 (h33 : V (Proc.devRef .tc main_v33) = Cert.ReferenceIdeal.ReadP.val_main_v33 (F := F) x0 x2)
    (h3 : V (Proc.devRef .tc main_v3) = Cert.ReferenceIdeal.ReadP.val_main_v3 (F := F) x1)
    (h6 : V (Proc.devRef .tc main_v6) = Cert.ReferenceIdeal.ReadP.val_main_v6 (F := F) x1)
    (h32 : V (Proc.devRef .tc main_v32) = Cert.ReferenceIdeal.ReadP.val_main_v32 (F := F) x1)
    (hb : V (Proc.devRef .tc main_arg3) = x3) :
    after hostOps1 V (Proc.devRef .tc main_v48) = Cert.ReferenceIdeal.ReadP.val_main_v48 (F := F) x0 x1 x2 x3 := by
  after_results_simp
  rw [h33, h3, h6, h32, hb]
  rfl

theorem agg_keeps_v3 : after hostOps1 V (Proc.devRef .tc main_v3) = V (Proc.devRef .tc main_v3) := by stretch_keeps
theorem agg_keeps_v6 : after hostOps1 V (Proc.devRef .tc main_v6) = V (Proc.devRef .tc main_v6) := by stretch_keeps
theorem agg_keeps_v32 : after hostOps1 V (Proc.devRef .tc main_v32) = V (Proc.devRef .tc main_v32) := by stretch_keeps
theorem agg_keeps_arg4 : after hostOps1 V (Proc.devRef .tc main_arg4) = V (Proc.devRef .tc main_arg4) := by stretch_keeps
theorem agg_keeps_arg5 : after hostOps1 V (Proc.devRef .tc main_arg5) = V (Proc.devRef .tc main_arg5) := by stretch_keeps

/-- The hidden layer: the aggregate clamped below at zero. -/
theorem relu_v49 (h48 : V (Proc.devRef .tc main_v48) = Cert.ReferenceIdeal.ReadP.val_main_v48 (F := F) x0 x1 x2 x3) :
    after hostOps1_1 V (Proc.devRef .tc main_v49) = Cert.ReferenceIdeal.ReadP.val_main_v49 (F := F) x0 x1 x2 x3 := by
  after_results
  rw [h48]
  rfl

theorem relu_keeps_v3 : after hostOps1_1 V (Proc.devRef .tc main_v3) = V (Proc.devRef .tc main_v3) := by stretch_keeps
theorem relu_keeps_v6 : after hostOps1_1 V (Proc.devRef .tc main_v6) = V (Proc.devRef .tc main_v6) := by stretch_keeps
theorem relu_keeps_v32 : after hostOps1_1 V (Proc.devRef .tc main_v32) = V (Proc.devRef .tc main_v32) := by stretch_keeps
theorem relu_keeps_arg4 : after hostOps1_1 V (Proc.devRef .tc main_arg4) = V (Proc.devRef .tc main_arg4) := by stretch_keeps
theorem relu_keeps_arg5 : after hostOps1_1 V (Proc.devRef .tc main_arg5) = V (Proc.devRef .tc main_arg5) := by stretch_keeps

/-! ## Aggregation after the second projection -/

set_option maxHeartbeats 1000000 in
/-- The same aggregation of the second projection's rows, with the second bias: the program's result. -/
theorem out_v65 (h50 : V (Proc.devRef .tc main_v50) = Cert.ReferenceIdeal.ReadP.val_main_v50 (F := F) x0 x1 x2 x3 x4)
    (h3 : V (Proc.devRef .tc main_v3) = Cert.ReferenceIdeal.ReadP.val_main_v3 (F := F) x1)
    (h6 : V (Proc.devRef .tc main_v6) = Cert.ReferenceIdeal.ReadP.val_main_v6 (F := F) x1)
    (h32 : V (Proc.devRef .tc main_v32) = Cert.ReferenceIdeal.ReadP.val_main_v32 (F := F) x1)
    (hb : V (Proc.devRef .tc main_arg5) = x5) :
    after hostOps2 V (Proc.devRef .tc main_v65) = Cert.ReferenceIdeal.ReadP.val_main_v65 (F := F) x0 x1 x2 x3 x4 x5 := by
  after_results_simp
  rw [h50, h3, h6, h32, hb]
  rfl

end

end Cert.KernelIdeal.HostSim

end
-- ==== Proof.KValue.lean ====
/-
  The kernel program's result, as the reference's stages of the launch arguments.

  The boundaries of the program are followed from the launch to the return.  Before the first projection the host
  operations build the source and destination vectors and the per-edge factor from the edge list; the first region
  leaves the plain product x · W1 in its result array (the row blocks tile it) and nothing else changed; the host
  operations between the regions aggregate it over the edges, add the first bias and clamp at zero; the second region
  leaves the plain product of that hidden layer with W2; the last host operations aggregate again and add the second
  bias.  At every boundary the buffers the later operations read hold the reference's stages of the same arguments, so
  the result array ends at the reference's last stage.
-/
import proofs.«165817_j14345190768997_1_alg».proof.Proof.Gen.KernelIdeal.Frame
import proofs.«165817_j14345190768997_1_alg».proof.Proof.Region0
import proofs.«165817_j14345190768997_1_alg».proof.Proof.Region1
import proofs.«165817_j14345190768997_1_alg».proof.Proof.HostSim

set_option maxRecDepth 16384

noncomputable section

namespace Cert.KernelIdeal.KValue

open Cert.KernelIdeal Cert.KernelIdeal.Gen Cert.KernelIdeal.HostSim
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first projection -/

theorem w1_v3 : W1 m ρ c (Proc.devRef .tc main_v3) = Cert.ReferenceIdeal.ReadP.val_main_v3 (F := Ideal) (m ((c.tc : Thread nD τ).loc main_arg1)) := first_v3 (W0 m ρ c)
theorem w1_v6 : W1 m ρ c (Proc.devRef .tc main_v6) = Cert.ReferenceIdeal.ReadP.val_main_v6 (F := Ideal) (m ((c.tc : Thread nD τ).loc main_arg1)) := first_v6 (W0 m ρ c)
theorem w1_v12 : W1 m ρ c (Proc.devRef .tc main_v12) = Cert.ReferenceIdeal.ReadP.val_main_v12 (F := Ideal) (m ((c.tc : Thread nD τ).loc main_arg1)) := first_v12 (W0 m ρ c)
theorem w1_v15 : W1 m ρ c (Proc.devRef .tc main_v15) = Cert.ReferenceIdeal.ReadP.val_main_v15 (F := Ideal) (m ((c.tc : Thread nD τ).loc main_arg1)) := first_v15 (W0 m ρ c)
theorem w1_cst3 : W1 m ρ c (Proc.devRef .tc main_cst_3) = Cert.ReferenceIdeal.ReadP.val_main_cst_3 (F := Ideal) := first_cst3 (W0 m ρ c)

theorem w2_v16 : W2 m ρ c (Proc.devRef .tc main_v16) = Cert.ReferenceIdeal.ReadP.val_main_v16 (F := Ideal) (m ((c.tc : Thread nD τ).loc main_arg1)) :=
  where_v16 (W1 m ρ c) (m ((c.tc : Thread nD τ).loc main_arg1)) (w1_v12 m ρ c) (w1_v15 m ρ c) (w1_cst3 m ρ c)
theorem w2_v3 : W2 m ρ c (Proc.devRef .tc main_v3) = Cert.ReferenceIdeal.ReadP.val_main_v3 (F := Ideal) (m ((c.tc : Thread nD τ).loc main_arg1)) :=
  (where_keeps_v3 (W1 m ρ c)).trans (w1_v3 m ρ c)
theorem w2_v6 : W2 m ρ c (Proc.devRef .tc main_v6) = Cert.ReferenceIdeal.ReadP.val_main_v6 (F := Ideal) (m ((c.tc : Thread nD τ).loc main_arg1)) :=
  (where_keeps_v6 (W1 m ρ c)).trans (w1_v6 m ρ c)

theorem w3_v32 : W3 m ρ c (Proc.devRef .tc main_v32) = Cert.ReferenceIdeal.ReadP.val_main_v32 (F := Ideal) (m ((c.tc : Thread nD τ).loc main_arg1)) :=
  norm_v32 (W2 m ρ c) (m ((c.tc : Thread nD τ).loc main_arg1)) (w2_v16 m ρ c) (w2_v3 m ρ c) (w2_v6 m ρ c)
theorem w3_v3 : W3 m ρ c (Proc.devRef .tc main_v3) = Cert.ReferenceIdeal.ReadP.val_main_v3 (F := Ideal) (m ((c.tc : Thread nD τ).loc main_arg1)) :=
  (norm_keeps_v3 (W2 m ρ c)).trans (w2_v3 m ρ c)
theorem w3_v6 : W3 m ρ c (Proc.devRef .tc main_v6) = Cert.ReferenceIdeal.ReadP.val_main_v6 (F := Ideal) (m ((c.tc : Thread nD τ).loc main_arg1)) :=
  (norm_keeps_v6 (W2 m ρ c)).trans (w2_v6 m ρ c)
theorem w3_arg0 : W3 m ρ c (Proc.devRef .tc main_arg0) = (m ((c.tc : Thread nD τ).loc main_arg0)) := head_keeps_arg0 (W0 m ρ c)
theorem w3_arg2 : W3 m ρ c (Proc.devRef .tc main_arg2) = (m ((c.tc : Thread nD τ).loc main_arg2)) := head_keeps_arg2 (W0 m ρ c)
theorem w3_arg3 : W3 m ρ c (Proc.devRef .tc main_arg3) = (m ((c.tc : Thread nD τ).loc main_arg3)) := head_keeps_arg3 (W0 m ρ c)
theorem w3_arg4 : W3 m ρ c (Proc.devRef .tc main_arg4) = (m ((c.tc : Thread nD τ).loc main_arg4)) := head_keeps_arg4 (W0 m ρ c)
theorem w3_arg5 : W3 m ρ c (Proc.devRef .tc main_arg5) = (m ((c.tc : Thread nD τ).loc main_arg5)) := head_keeps_arg5 (W0 m ρ c)

/-! ## The first projection -/

/-- The reference's dimension numbers for x · W1 are the plain product's. -/
theorem ref_dot1 : Cert.ReferenceIdeal.dot_S50000x128_S128x64_S50000x64_1_0_0_1_n_n = DotDims.plain 50000 128 64 := rfl

theorem w4_v33 : W4 m ρ c (Proc.devRef .tc main_v33)
    = Cert.ReferenceIdeal.ReadP.val_main_v33 (F := Ideal) (m ((c.tc : Thread nD τ).loc main_arg0)) (m ((c.tc : Thread nD τ).loc main_arg2)) := by
  refine ((W4_arr m ρ c 2).trans (Region0.final (V3 m ρ) c)).trans ?_
  unfold Region0.prod Cert.ReferenceIdeal.ReadP.val_main_v33
  rw [ref_dot1, show Region0.lhsArr (V3 m ρ) c = (m ((c.tc : Thread nD τ).loc main_arg0)) from w3_arg0 m ρ c,
    show Region0.rhsArr (V3 m ρ) c = (m ((c.tc : Thread nD τ).loc main_arg2)) from w3_arg2 m ρ c]

theorem w4_v3 : W4 m ρ c (Proc.devRef .tc main_v3) = Cert.ReferenceIdeal.ReadP.val_main_v3 (F := Ideal) (m ((c.tc : Thread nD τ).loc main_arg1)) :=
  (W4_of_ne m ρ c main_v3 (by decide)).trans (w3_v3 m ρ c)
theorem w4_v6 : W4 m ρ c (Proc.devRef .tc main_v6) = Cert.ReferenceIdeal.ReadP.val_main_v6 (F := Ideal) (m ((c.tc : Thread nD τ).loc main_arg1)) :=
  (W4_of_ne m ρ c main_v6 (by decide)).trans (w3_v6 m ρ c)
theorem w4_v32 : W4 m ρ c (Proc.devRef .tc main_v32) = Cert.ReferenceIdeal.ReadP.val_main_v32 (F := Ideal) (m ((c.tc : Thread nD τ).loc main_arg1)) :=
  (W4_of_ne m ρ c main_v32 (by decide)).trans (w3_v32 m ρ c)
theorem w4_arg3 : W4 m ρ c (Proc.devRef .tc main_arg3) = (m ((c.tc : Thread nD τ).loc main_arg3)) :=
  (W4_of_ne m ρ c main_arg3 (by decide)).trans (w3_arg3 m ρ c)
theorem w4_arg4 : W4 m ρ c (Proc.devRef .tc main_arg4) = (m ((c.tc : Thread nD τ).loc main_arg4)) :=
  (W4_of_ne m ρ c main_arg4 (by decide)).trans (w3_arg4 m ρ c)
theorem w4_arg5 : W4 m ρ c (Proc.devRef .tc main_arg5) = (m ((c.tc : Thread nD τ).loc main_arg5)) :=
  (W4_of_ne m ρ c main_arg5 (by decide)).trans (w3_arg5 m ρ c)

/-! ## Between the projections -/

theorem w5_v48 : W5 m ρ c (Proc.devRef .tc main_v48)
    = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) :=
  agg_v48 (W4 m ρ c) (m ((c.tc : Thread nD τ).loc main_arg0)) (m ((c.tc : Thread nD τ).loc main_arg1)) (m ((c.tc : Thread nD τ).loc main_arg2)) (m ((c.tc : Thread nD τ).loc main_arg3))
    (w4_v33 m ρ c) (w4_v3 m ρ c) (w4_v6 m ρ c) (w4_v32 m ρ c) (w4_arg3 m ρ c)

theorem w6_v49 : W6 m ρ c (Proc.devRef .tc main_v49)
    = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) :=
  relu_v49 (W5 m ρ c) (m ((c.tc : Thread nD τ).loc main_arg0)) (m ((c.tc : Thread nD τ).loc main_arg1)) (m ((c.tc : Thread nD τ).loc main_arg2)) (m ((c.tc : Thread nD τ).loc main_arg3)) (w5_v48 m ρ c)

theorem w6_v3 : W6 m ρ c (Proc.devRef .tc main_v3) = Cert.ReferenceIdeal.ReadP.val_main_v3 (F := Ideal) (m ((c.tc : Thread nD τ).loc main_arg1)) :=
  (relu_keeps_v3 (W5 m ρ c)).trans ((agg_keeps_v3 (W4 m ρ c)).trans (w4_v3 m ρ c))
theorem w6_v6 : W6 m ρ c (Proc.devRef .tc main_v6) = Cert.ReferenceIdeal.ReadP.val_main_v6 (F := Ideal) (m ((c.tc : Thread nD τ).loc main_arg1)) :=
  (relu_keeps_v6 (W5 m ρ c)).trans ((agg_keeps_v6 (W4 m ρ c)).trans (w4_v6 m ρ c))
theorem w6_v32 : W6 m ρ c (Proc.devRef .tc main_v32) = Cert.ReferenceIdeal.ReadP.val_main_v32 (F := Ideal) (m ((c.tc : Thread nD τ).loc main_arg1)) :=
  (relu_keeps_v32 (W5 m ρ c)).trans ((agg_keeps_v32 (W4 m ρ c)).trans (w4_v32 m ρ c))
theorem w6_arg4 : W6 m ρ c (Proc.devRef .tc main_arg4) = (m ((c.tc : Thread nD τ).loc main_arg4)) :=
  (relu_keeps_arg4 (W5 m ρ c)).trans ((agg_keeps_arg4 (W4 m ρ c)).trans (w4_arg4 m ρ c))
theorem w6_arg5 : W6 m ρ c (Proc.devRef .tc main_arg5) = (m ((c.tc : Thread nD τ).loc main_arg5)) :=
  (relu_keeps_arg5 (W5 m ρ c)).trans ((agg_keeps_arg5 (W4 m ρ c)).trans (w4_arg5 m ρ c))

/-! ## The second projection -/

/-- The reference's dimension numbers for h · W2 are the plain product's. -/
theorem ref_dot2 : Cert.ReferenceIdeal.dot_S50000x64_S64x64_S50000x64_1_0_0_1_n_n = DotDims.plain 50000 64 64 := rfl

theorem w7_v50 : W7 m ρ c (Proc.devRef .tc main_v50)
    = Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W7_arr m ρ c 2).trans (Region1.final (V6 m ρ) c)).trans ?_
  unfold Region1.prod Cert.ReferenceIdeal.ReadP.val_main_v50
  rw [ref_dot2, show Region1.lhsArr (V6 m ρ) c = _ from w6_v49 m ρ c,
    show Region1.rhsArr (V6 m ρ) c = (m ((c.tc : Thread nD τ).loc main_arg4)) from w6_arg4 m ρ c]

theorem w7_v3 : W7 m ρ c (Proc.devRef .tc main_v3) = Cert.ReferenceIdeal.ReadP.val_main_v3 (F := Ideal) (m ((c.tc : Thread nD τ).loc main_arg1)) :=
  (W7_of_ne m ρ c main_v3 (by decide)).trans (w6_v3 m ρ c)
theorem w7_v6 : W7 m ρ c (Proc.devRef .tc main_v6) = Cert.ReferenceIdeal.ReadP.val_main_v6 (F := Ideal) (m ((c.tc : Thread nD τ).loc main_arg1)) :=
  (W7_of_ne m ρ c main_v6 (by decide)).trans (w6_v6 m ρ c)
theorem w7_v32 : W7 m ρ c (Proc.devRef .tc main_v32) = Cert.ReferenceIdeal.ReadP.val_main_v32 (F := Ideal) (m ((c.tc : Thread nD τ).loc main_arg1)) :=
  (W7_of_ne m ρ c main_v32 (by decide)).trans (w6_v32 m ρ c)
theorem w7_arg5 : W7 m ρ c (Proc.devRef .tc main_arg5) = (m ((c.tc : Thread nD τ).loc main_arg5)) :=
  (W7_of_ne m ρ c main_arg5 (by decide)).trans (w6_arg5 m ρ c)

/-! ## The result -/

/-- The result array after the last host stretch is the reference's last stage of the launch arguments. -/
theorem result : W8 m ρ c (Proc.devRef .tc main_v65)
    = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  out_v65 (W7 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (w7_v50 m ρ c) (w7_v3 m ρ c) (w7_v6 m ρ c) (w7_v32 m ρ c) (w7_arg5 m ρ c)

end Cert.KernelIdeal.KValue

end
-- ==== Proof.lean ====
/-
  A two-layer graph convolution: the kernel program against the reference, over the extended reals.

  Both programs add a self loop to every node, take the in-degree d of each node over the edges and the self loops,
  weight edge (s, t) by d(s)^(-1/2) · d(t)^(-1/2) (zero where a degree is not positive), and compute twice
      out = scatter-add over edges (s, t) of  weight(s, t) · (h · W)[s]  into row t,  plus the bias,
  with a clamp below at zero between the two layers.  The programs differ only in how h · W is computed: the
  reference takes one product of the whole arrays; the kernel program computes it in five blocks of 10000 rows, each
  block's operands rounded to bf16 first and multiplied into a zero accumulator.  Over the extended reals the
  rounding is the identity and a block's entry (p, q) is Σₖ h(10000 t + p, k) · W(k, q), the whole product's entry at
  row 10000 t + p; the blocks tile the rows, so each projection's array is the whole product (Region0, Region1).  All the
  other operations are the same operations applied to the same operands on both sides, and are never opened: the
  kernel program's buffers are followed from boundary to boundary and shown to hold the reference's stages of the
  launch arguments (HostSim, KValue).  No algebraic law and no finiteness of the inputs is needed: the two results are
  the same expression of the arguments.

  The three frames: the kernel programs' are the generated frame certificates; the reference's is its run with the
  result dropped.  The idealization rewrote no operation, so there is nothing to preserve.
-/
import proofs.«165817_j14345190768997_1_alg».proof.Defs
import proofs.«165817_j14345190768997_1_alg».proof.Proof.Gen.Kernel
import proofs.«165817_j14345190768997_1_alg».proof.Proof.Gen.Kernel.Frame
import proofs.«165817_j14345190768997_1_alg».proof.Proof.Gen.KernelIdeal
import proofs.«165817_j14345190768997_1_alg».proof.Proof.Gen.KernelIdeal.Frame
import proofs.«165817_j14345190768997_1_alg».proof.Proof.Gen.ReferenceIdeal
import proofs.«165817_j14345190768997_1_alg».proof.Proof.Gen.Pre_finite_inputs
import proofs.«165817_j14345190768997_1_alg».proof.Proof.KernelRun
import proofs.«165817_j14345190768997_1_alg».proof.Proof.KValue
import proofs.«165817_j14345190768997_1_alg».proof.Proof.RefRead

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the result array at the reference's last stage
    of those arguments: the kernel program by following its boundaries, the reference by its own run. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.result m ρ c), (h c).2⟩) (Cert.KernelIdeal.Run.run_main m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
